-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S5636096 : Shape := ⟨1, ![5636096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel

variable [Facts]

def fn {F : FTy → Type} [FloatOps F] (main_arg0 : FVec F S1024x4096 .f32) (main_arg1 : IVec S5636096 32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  main_v3
-- ==== Kernel.lean ====
abbrev S1024x4096 : Shape := ⟨2, ![1024, 4096]⟩
abbrev S5636096 : Shape := ⟨1, ![5636096]⟩
abbrev S1024x512x8 : Shape := ⟨3, ![1024, 512, 8]⟩
abbrev S1024x8x512 : Shape := ⟨3, ![1024, 8, 512]⟩
abbrev S_ : Shape := ⟨0, ![]⟩
abbrev S1024 : Shape := ⟨1, ![1024]⟩
abbrev S1024x1 : Shape := ⟨2, ![1024, 1]⟩
abbrev S11008x512 : Shape := ⟨2, ![11008, 512]⟩
abbrev S1024x11008 : Shape := ⟨2, ![1024, 11008]⟩
abbrev S256x512 : Shape := ⟨2, ![256, 512]⟩
abbrev S1024x256 : Shape := ⟨2, ![1024, 256]⟩
abbrev S1024x512 : Shape := ⟨2, ![1024, 512]⟩

abbrev nBuf : Space → Nat
  | .hbm => 11
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S5636096, .i32⟩
  | .hbm, ⟨2, _⟩ => ⟨S1024x512x8, .f32⟩
  | .hbm, ⟨3, _⟩ => ⟨S1024x8x512, .f32⟩
  | .hbm, ⟨4, _⟩ => ⟨S1024x4096, .f32⟩
  | .hbm, ⟨5, _⟩ => ⟨S1024x4096, .bf16⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S11008x512, .i32⟩
  | .hbm, ⟨10, _⟩ => ⟨S1024x11008, .f32⟩
  | .local _ .vmem, ⟨0, _⟩ => ⟨S1024x4096, .bf16⟩
  | .local _ .vmem, ⟨1, _⟩ => ⟨S256x512, .i32⟩
  | .local _ .vmem, ⟨2, _⟩ => ⟨S256x512, .i32⟩
  | .local _ .vmem, ⟨3, _⟩ => ⟨S1024x1, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024x4096_S1024x512x8 : S1024x4096.ShapeCasts S1024x512x8
  transposes_S1024x512x8_S1024x8x512_0_2_1 : S1024x512x8.Transposes [0, 2, 1] S1024x8x512
  shapeCasts_S1024x8x512_S1024x4096 : S1024x8x512.ShapeCasts S1024x4096
  bitsLt_bf16_f32 : FTy.bits .bf16 < FTy.bits .f32
  reducesTo_S1024x4096_S1024_d1 : S1024x4096.ReducesTo [1] S1024
  h_S_ : 0 < S_.numel
  bcast_S1024_S1024x1_0 : S1024.BroadcastsInDim S1024x1 (![0] : Fin 1 → Fin S1024x1.rank)
  shapeCasts_S5636096_S11008x512 : S5636096.ShapeCasts S11008x512
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1024x4096_S1024x512_0_0 : ∀ a, (![0, 0] : Fin 2 → Nat) a + S1024x512.size a ≤ S1024x4096.size a
  h_S1024x512 : 0 < S1024x512.numel
  shapeCasts_S1024x512_S1024x512 : S1024x512.ShapeCasts S1024x512
  inb_S1024x4096_S1024x512_0_512 : ∀ a, (![0, 512] : Fin 2 → Nat) a + S1024x512.size a ≤ S1024x4096.size a
  inb_S1024x4096_S1024x512_0_1024 : ∀ a, (![0, 1024] : Fin 2 → Nat) a + S1024x512.size a ≤ S1024x4096.size a
  inb_S1024x4096_S1024x512_0_1536 : ∀ a, (![0, 1536] : Fin 2 → Nat) a + S1024x512.size a ≤ S1024x4096.size a
  inb_S1024x4096_S1024x512_0_2048 : ∀ a, (![0, 2048] : Fin 2 → Nat) a + S1024x512.size a ≤ S1024x4096.size a
  inb_S1024x4096_S1024x512_0_2560 : ∀ a, (![0, 2560] : Fin 2 → Nat) a + S1024x512.size a ≤ S1024x4096.size a
  inb_S1024x4096_S1024x512_0_3072 : ∀ a, (![0, 3072] : Fin 2 → Nat) a + S1024x512.size a ≤ S1024x4096.size a
  inb_S1024x4096_S1024x512_0_3584 : ∀ a, (![0, 3584] : Fin 2 → Nat) a + S1024x512.size a ≤ S1024x4096.size a
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  dot_S1024x512_S256x512_S1024x256_1_1_0_0_n_n_wf : DotDims.WF S1024x512 S256x512 S1024x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .bf16 = 32 ∨ (Rect.block (s := S1024x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S11008x512.size a
  hwx0_1 : ∀ i : grid0.Coords, EltTy.bits .i32 = 32 ∨ (Rect.block (s := S11008x512) S256x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x11008.size a
  hwx0_3 : ∀ i : grid0.Coords, EltTy.bits .f32 = 32 ∨ (Rect.block (s := S1024x11008) S1024x256.size (cc0_transform_3 i) (hinb0_3 i)).WholeWords (EltTy.packing .f32)

variable [Facts₀]

def dot_S1024x512_S256x512_S1024x256_1_1_0_0_n_n : DotDims S1024x512 S256x512 S1024x256 where
  lhsContracting := [1]
  rhsContracting := [1]
  lhsNonContracting := [0]
  rhsNonContracting := [0]
  lhsBatch := []
  rhsBatch := []
  wf := dot_S1024x512_S256x512_S1024x256_1_1_0_0_n_n_wf

abbrev win0_0 : Pipeline.Window sig grid0 :=
  Pipeline.Window.ofSpec (Memref.whole main_v3) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S5636096 : Shape := ⟨1, ![5636096]⟩
abbrev S8 : Shape := ⟨1, ![8]⟩
abbrev S_ : Shape := ⟨0, ![]⟩
abbrev S5636096x1 : Shape := ⟨2, ![5636096, 1]⟩
abbrev S1x8 : Shape := ⟨2, ![1, 8]⟩
abbrev S5636096x8 : Shape := ⟨2, ![5636096, 8]⟩
abbrev S11008x4096 : Shape := ⟨2, ![11008, 4096]⟩
abbrev S4096x11008 : Shape := ⟨2, ![4096, 11008]⟩
abbrev S1024x11008 : Shape := ⟨2, ![1024, 11008]⟩

abbrev nBuf : Space → Nat
  | .hbm => 27
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S5636096, .i32⟩
  | .hbm, ⟨2, _⟩ => ⟨S8, .i32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S5636096x1, .i32⟩
  | .hbm, ⟨10, _⟩ => ⟨S1x8, .i32⟩
  | .hbm, ⟨11, _⟩ => ⟨S5636096x8, .i32⟩
  | .hbm, ⟨12, _⟩ => ⟨S5636096x8, .i32⟩
  | .hbm, ⟨13, _⟩ => ⟨S5636096x8, .i32⟩
  | .hbm, ⟨14, _⟩ => ⟨S_, .i32⟩
  | .hbm, ⟨15, _⟩ => ⟨S5636096x8, .i32⟩
  | .hbm, ⟨16, _⟩ => ⟨S5636096x8, .i32⟩
  | .hbm, ⟨17, _⟩ => ⟨S11008x4096, .i32⟩
  | .hbm, ⟨18, _⟩ => ⟨S11008x4096, .f32⟩
  | .hbm, ⟨19, _⟩ => ⟨S_, .f32⟩
  | .hbm, ⟨20, _⟩ => ⟨S11008x4096, .f32⟩
  | .hbm, ⟨21, _⟩ => ⟨S11008x4096, .f32⟩
  | .hbm, ⟨22, _⟩ => ⟨S_, .f32⟩
  | .hbm, ⟨23, _⟩ => ⟨S11008x4096, .f32⟩
  | .hbm, ⟨24, _⟩ => ⟨S11008x4096, .f32⟩
  | .hbm, ⟨25, _⟩ => ⟨S4096x11008, .f32⟩
  | .hbm, ⟨26, _⟩ => ⟨S1024x11008, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S5636096_S5636096x1_0 : S5636096.BroadcastsInDim S5636096x1 (![0] : Fin 1 → Fin S5636096x1.rank)
  bcast_S8_S1x8_1 : S8.BroadcastsInDim S1x8 (![1] : Fin 1 → Fin S1x8.rank)
  bcast_S5636096x1_S5636096x8_0_1 : S5636096x1.BroadcastsInDim S5636096x8 (![0, 1] : Fin 2 → Fin S5636096x8.rank)
  bcast_S1x8_S5636096x8_0_1 : S1x8.BroadcastsInDim S5636096x8 (![0, 1] : Fin 2 → Fin S5636096x8.rank)
  bcast_S_S5636096x8 : S_.BroadcastsInDim S5636096x8 (![] : Fin 0 → Fin S5636096x8.rank)
  shapeCasts_S5636096x8_S11008x4096 : S5636096x8.ShapeCasts S11008x4096
  bcast_S_S11008x4096 : S_.BroadcastsInDim S11008x4096 (![] : Fin 0 → Fin S11008x4096.rank)
  transposes_S11008x4096_S4096x11008_1_0 : S11008x4096.Transposes [1, 0] S4096x11008
  dot_S1024x4096_S4096x11008_S1024x11008_1_0_0_1_n_n_wf : DotDims.WF S1024x4096 S4096x11008 S1024x11008 [1] [0] [0] [1] [] []

variable [Facts₀]

def dot_S1024x4096_S4096x11008_S1024x11008_1_0_0_1_n_n : DotDims S1024x4096 S4096x11008 S1024x11008 where
  lhsContracting := [1]
  rhsContracting := [0]
  lhsNonContracting := [0]
  rhsNonContracting := [1]
  lhsBatch := []
  rhsBatch := []
  wf := dot_S1024x4096_S4096x11008_S1024x11008_1_0_0_1_n_n_wf

class Facts : Prop extends Facts₀ where

variable [Facts]
-- ==== Proof.SignedBits.lean ====
/-
  A linear layer whose weights are signs, packed one bit each.

  The weight matrix has 11008 rows of 4096 entries, each entry `-1` or `+1`. Eight entries share one packed
  word: entry `k = 8 g + s` of row `n` is bit `7 - s` of word `512 n + g` (the most significant bit of the low
  byte comes first), and a bit `b` stands for the weight `2 b - 1`. The layer's value at `(p, n)` is
  `∑ k, x p k * (2 b n k - 1)`.

  The same number can be computed plane by plane: for each bit position `s` sum `x p (8 g + s) * b` over the
  512 words of the row, add the eight planes up, double, and subtract the plain row sum `∑ k, x p k`. The two
  agree because `x * (2 b - 1) = 2 (x b) - x`, a law of the reals that FAILS at an infinite `x` (there
  `2 x - x` is `∞ - ∞`): so the law is proved over the reals (`planes_real`) and carried to the extended reals
  for entries that are real numbers (`planes`).
-/
import Idealize.ShloMosaic.PureOps.Ideal
import Idealize.ShloMosaic.PureOps.Ideal.Laws
import Idealize.ShloMosaic.Lib.ValueIdx

noncomputable section

namespace SignedBits

open Idealize.ShloMosaic Idealize.ShloMosaic.ValueIdx

/-! ## One packed bit -/

/-- Bit `7 - s` of a packed word, as the word `0` or `1`: shift right, keep the lowest bit. -/
def bitWord (w : BitVec 32) (s : Fin 8) : BitVec 32 :=
  IntOp.andi (w.sshiftRight' (BitVec.ofNat 32 (7 - s.val))) 1#32

/-- The same bit as a real number. -/
def bit (w : BitVec 32) (s : Fin 8) : ℝ := ((bitWord w s).toInt : ℝ)

/-- A shift by fewer than 32 places is the plain arithmetic shift, on whichever unit it runs. -/
theorem shrsi_small (u : ArithUnit) (w : BitVec 32) (s : Fin 8) :
    IntOp.shrsi u w (BitVec.ofNat 32 (7 - s.val)) = w.sshiftRight' (BitVec.ofNat 32 (7 - s.val)) := by
  unfold IntOp.shrsi
  rw [if_pos]
  have := s.isLt
  rw [BitVec.toNat_ofNat]
  omega

/-- The shift amount computed as `7 + (-1) * j` in 32-bit arithmetic is `7 - j` for `j < 8`. -/
theorem seven_minus (j : Fin 8) :
    IntOp.addi 7#32 (IntOp.muli 4294967295#32 (BitVec.ofNat 32 j.val)) = BitVec.ofNat 32 (7 - j.val) := by
  fin_cases j <;> rfl

/-! ## Two literals -/

/-- The pattern of `2.0` denotes the real number 2. -/
theorem ofBits_two : Ideal.ofBits .f32 0x40000000#32 = ((2 : ℝ) : EReal) := by
  simp [Ideal.ofBits, Ideal.ieee, -EReal.coe_mul] <;> norm_num

/-- The pattern of `1.0` denotes the real number 1. -/
theorem ofBits_one : Ideal.ofBits .f32 0x3F800000#32 = ((1 : ℝ) : EReal) := by
  simp [Ideal.ofBits, Ideal.ieee, -EReal.coe_mul] <;> norm_num

/-! ## The layer -/

/-- Column `8 g + s`. -/
def col (g : Fin 512) (s : Fin 8) : Fin 4096 := ⟨8 * g.val + s.val, by have := g.isLt; have := s.isLt; omega⟩

/-- Word `512 n + g` of the packed array. -/
def word (n : Fin 11008) (g : Fin 512) : Fin 5636096 := ⟨512 * n.val + g.val, by have := n.isLt; have := g.isLt; omega⟩

/-- The weight at row `n`, column `k`: `2 b - 1` of its packed bit. -/
def weight (bp : (⟨1, ![5636096]⟩ : Shape).Idx → BitVec 32) (n : Fin 11008) (k : Fin 4096) : ℝ :=
  bit (bp (ix1 (word n ⟨k.val / 8, by have := k.isLt; omega⟩))) ⟨k.val % 8, by omega⟩ * 2 - 1

/-- The layer: `x` times the transposed sign matrix. -/
def layer (x : (⟨2, ![1024, 4096]⟩ : Shape).Idx → EReal) (bp : (⟨1, ![5636096]⟩ : Shape).Idx → BitVec 32) :
    (⟨2, ![1024, 11008]⟩ : Shape).Idx → EReal :=
  fun i => ∑ k : Fin 4096, x (ix2 (i 0) k) * ((weight bp (i 1) k : ℝ) : EReal)

/-! ## The sum over columns, plane by plane -/

/-- Columns are pairs (bit position, word). -/
def colEquiv : Fin 8 × Fin 512 ≃ Fin 4096 where
  toFun p := col p.2 p.1
  invFun k := (⟨k.val % 8, by omega⟩, ⟨k.val / 8, by have := k.isLt; omega⟩)
  left_inv p := by
    obtain ⟨s, g⟩ := p
    have := s.isLt
    refine Prod.ext (Fin.ext ?_) (Fin.ext ?_)
    · show (8 * g.val + s.val) % 8 = s.val
      omega
    · show (8 * g.val + s.val) / 8 = g.val
      omega
  right_inv k := Fin.ext (by show 8 * (k.val / 8) + k.val % 8 = k.val; omega)

theorem sum_planes {M : Type*} [AddCommMonoid M] (f : Fin 4096 → M) :
    ∑ k : Fin 4096, f k = ∑ s : Fin 8, ∑ g : Fin 512, f (col g s) := by
  rw [← Equiv.sum_comp colEquiv f, Fintype.sum_prod_type]
  rfl

/-- The law over the reals: doubling the eight planes' sum and subtracting the row sum gives the signed sum. -/
theorem planes_real (X : Fin 4096 → ℝ) (B : Fin 4096 → ℝ) :
    2 * ((((((((0 + ∑ g : Fin 512, X (col g 0) * B (col g 0)) + ∑ g : Fin 512, X (col g 1) * B (col g 1))
        + ∑ g : Fin 512, X (col g 2) * B (col g 2)) + ∑ g : Fin 512, X (col g 3) * B (col g 3))
        + ∑ g : Fin 512, X (col g 4) * B (col g 4)) + ∑ g : Fin 512, X (col g 5) * B (col g 5))
        + ∑ g : Fin 512, X (col g 6) * B (col g 6)) + ∑ g : Fin 512, X (col g 7) * B (col g 7))
      - (0 + ∑ k : Fin 4096, X k)
      = ∑ k : Fin 4096, X k * (B k * 2 - 1) := by
  have h : ∑ k : Fin 4096, X k * (B k * 2 - 1) = 2 * (∑ k : Fin 4096, X k * B k) - ∑ k : Fin 4096, X k := by
    rw [Finset.mul_sum, ← Finset.sum_sub_distrib]
    exact Finset.sum_congr rfl fun k _ => by ring
  rw [h, sum_planes (fun k => X k * B k), Fin.sum_univ_eight]
  ring

/-- A finite sum of real numbers, read in the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the extended reals, for entries and bits that are real numbers. -/
theorem planes (X : Fin 4096 → ℝ) (B : Fin 4096 → ℝ) :
    ((2 : ℝ) : EReal) * ((((((((0 + ∑ g : Fin 512, (X (col g 0) : EReal) * (B (col g 0) : EReal))
        + ∑ g : Fin 512, (X (col g 1) : EReal) * (B (col g 1) : EReal))
        + ∑ g : Fin 512, (X (col g 2) : EReal) * (B (col g 2) : EReal))
        + ∑ g : Fin 512, (X (col g 3) : EReal) * (B (col g 3) : EReal))
        + ∑ g : Fin 512, (X (col g 4) : EReal) * (B (col g 4) : EReal))
        + ∑ g : Fin 512, (X (col g 5) : EReal) * (B (col g 5) : EReal))
        + ∑ g : Fin 512, (X (col g 6) : EReal) * (B (col g 6) : EReal))
        + ∑ g : Fin 512, (X (col g 7) : EReal) * (B (col g 7) : EReal))
      - (0 + ∑ k : Fin 4096, (X k : EReal))
      = ∑ k : Fin 4096, (X k : EReal) * ((B k * 2 - 1 : ℝ) : EReal) := by
  have h := congrArg (fun r : ℝ => (r : EReal)) (planes_real X B)
  simp only [EReal.coe_sub, EReal.coe_mul, EReal.coe_add, coe_sum, EReal.coe_zero] at h
  simp only [EReal.coe_sub, EReal.coe_mul]
  exact h

end SignedBits

end
-- ==== Proof.Body.lean ====
/-
  What one grid point computes.

  At a grid point the kernel holds three blocks: `x0`, the whole activation matrix with its columns regrouped so that
  column `512 s + g` is the entry multiplying bit position `s` of word `g`; `x1`, 256 rows of 512 packed words; `x2`,
  the column of row sums. It zeroes an accumulator, adds for `s = 0 … 7` the product of columns `512 s … 512 s + 511`
  of `x0` with the transposed matrix of bits `7 - s` of `x1`, and stores twice the accumulator minus the row sums.

  Here that is read off the run as ONE term of the three blocks (`outBlock`, `out_eq`), and then at an index
  `(p, q)` as `2 * (((0 + P 0) + P 1) + … + P 7) - x2 p`, where plane `P s = ∑ g, x0 p (512 s + g) * bit (x1 q g) s`
  (`outBlock_apply`): a matrix product into a zero accumulator is a plain sum over the contracted index, and the
  word `(w >> (7 - s)) & 1` converted to a float is the real number `bit w s`.
-/
import proofs.«406354_j15848429322573_2_alg».proof.Proof.Gen.KernelIdeal.Frame
import proofs.«406354_j15848429322573_2_alg».proof.Proof.SignedBits
import Idealize.ShloMosaic.Lib.Pipeline.Value
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem Idealize.ShloMosaic.ValueIdx

namespace Cert.KernelIdeal.Body

open Cert.KernelIdeal Cert.KernelIdeal.Gen SignedBits

variable {F : FTy → Type} [FloatOps F]

theorem hz : (![0, 0] : Fin 2 → Nat) = fun _ => 0 := funext fun a => by fin_cases a <;> rfl

/-! ## The block the body leaves, as one term of its three input blocks -/

/-- The output block: the eight accumulation steps over the zero block, then `2 * acc - rowsum`. Each step reads
    its 512 columns of `x0` and all of `x1`; what a step reads back from the accumulator is what the step before
    stored. -/
def outBlock (x0 : Vec F S1024x4096 .bf16) (x1 : Vec F S256x512 .i32) (x2 : Vec F S1024x1 .f32) : Vec F S1024x256 .f32 :=
  k0_pay2
    (k0_pay1 (k0_pay14 (k0_pay4 x1)) (View.ld x0 (Rect.unit ![0, 3584] ![1024, 512] Facts₀.inb_S1024x4096_S1024x512_0_3584))
      (k0_pay13 (k0_pay4 x1) (View.ld x0 (Rect.unit ![0, 3072] ![1024, 512] Facts₀.inb_S1024x4096_S1024x512_0_3072))
        (k0_pay12 (k0_pay4 x1) (View.ld x0 (Rect.unit ![0, 2560] ![1024, 512] Facts₀.inb_S1024x4096_S1024x512_0_2560))
          (k0_pay11 (k0_pay9 (k0_pay4 x1))
            (k0_pay10 (View.ld x0 (Rect.unit ![0, 2048] ![1024, 512] Facts₀.inb_S1024x4096_S1024x512_0_2048)))
            (k0_pay8 (k0_pay4 x1) (View.ld x0 (Rect.unit ![0, 1536] ![1024, 512] Facts₀.inb_S1024x4096_S1024x512_0_1536))
              (k0_pay7 (k0_pay4 x1) (5#32)
                (View.ld x0 (Rect.unit ![0, 1024] ![1024, 512] Facts₀.inb_S1024x4096_S1024x512_0_1024))
                (k0_pay6 x1 (View.ld x0 (Rect.unit ![0, 512] ![1024, 512] Facts₀.inb_S1024x4096_S1024x512_0_512))
                  (k0_pay5 x1 (View.ld x0 (Rect.unit ![0, 0] ![1024, 512] Facts₀.inb_S1024x4096_S1024x512_0_0)) k0_pay3))))
            (constant S1024x256 FTy.f32 0#32)))))
    x2

/-- The run's one covering store of the output block holds `outBlock` of the input blocks: every read of the
    accumulator is of the whole buffer right after a store of the whole buffer, so it reads that store's payload. -/
theorem out_eq (c : Dev nD) (i : grid0.Coords) (a1 : Memref sig .tc .vmem S1024x4096 .bf16) (h1 : a1.IsWhole)
    (a2 : Memref sig .tc .vmem S256x512 .i32) (h2 : a2.IsWhole) (a3 : Memref sig .tc .vmem S1024x1 .f32) (h3 : a3.IsWhole)
    (a4 : Memref sig .tc .vmem S1024x256 .f32) (h4 : a4.IsWhole) (a5 : Memref sig .tc .vmem S1024x256 .f32) (h5 : a5.IsWhole)
    (x0 : Vec F S1024x4096 .bf16) (x1 : Vec F S256x512 .i32) (x2 : Vec F S1024x1 .f32) :
    out0_A_3 c i a1 h1 a2 h2 a3 h3 a4 h4 a5 h5 x0 x1 x2 = outBlock x0 x1 x2 := by
  unfold out0_A_3
  rw [View.read_writes_eq_canon _ _ _ (cover0_A_3 c i a1 h1 a2 h2 a3 h3 a4 h4 a5 h5 x0 x1 x2)]
  unfold kernelRun0_A
  dsimp only
  sl_unfold_words
  rw [View.canon_unit_zero hz]
  simp only [View.readCov_cons_toLoadRect, View.readAt_eq_ld, h1.read_unread, h2.read_unread, h3.read_unread,
    View.ld_unit_zero (S := S256x512) hz, View.ld_unit_zero (S := S1024x1) hz]
  rfl

/-! ## One plane's matrix product, at an index -/

theorem lhs_row (i : S1024x256.Idx) (k : dot_S1024x512_S256x512_S1024x256_1_1_0_0_n_n.contr.Idx) :
    (dot_S1024x512_S256x512_S1024x256_1_1_0_0_n_n.lhsIdx i k 0).val = (i 0).val := by
  unfold DotDims.lhsIdx
  rw [dif_neg (show ¬(0 : Fin S1024x512.rank) ∈ dot_S1024x512_S256x512_S1024x256_1_1_0_0_n_n.lhsBatch by decide), dif_pos (show (0 : Fin S1024x512.rank) ∈ dot_S1024x512_S256x512_S1024x256_1_1_0_0_n_n.lhsNonContracting by decide)]
  rfl
theorem lhs_col (i : S1024x256.Idx) (k : dot_S1024x512_S256x512_S1024x256_1_1_0_0_n_n.contr.Idx) :
    (dot_S1024x512_S256x512_S1024x256_1_1_0_0_n_n.lhsIdx i k 1).val = (k ⟨0, by decide⟩).val :=
  dot_S1024x512_S256x512_S1024x256_1_1_0_0_n_n.lhsIdx_val_of_single rfl i k
theorem rhs_row (i : S1024x256.Idx) (k : dot_S1024x512_S256x512_S1024x256_1_1_0_0_n_n.contr.Idx) :
    (dot_S1024x512_S256x512_S1024x256_1_1_0_0_n_n.rhsIdx i k 0).val = (i 1).val := by
  unfold DotDims.rhsIdx
  rw [dif_neg (show ¬(0 : Fin S256x512.rank) ∈ dot_S1024x512_S256x512_S1024x256_1_1_0_0_n_n.rhsBatch by decide), dif_pos (show (0 : Fin S256x512.rank) ∈ dot_S1024x512_S256x512_S1024x256_1_1_0_0_n_n.rhsNonContracting by decide)]
  rfl
theorem rhs_col (i : S1024x256.Idx) (k : dot_S1024x512_S256x512_S1024x256_1_1_0_0_n_n.contr.Idx) :
    (dot_S1024x512_S256x512_S1024x256_1_1_0_0_n_n.rhsIdx i k 1).val = (k ⟨0, by decide⟩).val :=
  dot_S1024x512_S256x512_S1024x256_1_1_0_0_n_n.rhsIdx_val_of_single rfl i k

/-- The product of a [1024, 512] block with the transpose of a [256, 512] block into the zero block, at `(p, q)`:
    the sum over the 512 shared columns. -/
theorem plane_apply (xs : FVec Ideal S1024x512 .bf16) (bs : FVec Ideal S256x512 .bf16) (p : Fin 1024) (q : Fin 256) :
    matmul dot_S1024x512_S256x512_S1024x256_1_1_0_0_n_n none xs bs (constant S1024x256 .f32 0x00000000#32) (ix2 p q)
      = ∑ g : Fin 512, xs (ix2 p g) * bs (ix2 q g) := by
  simp only [matmul]
  rw [Ideal.matmul_constant_zero_apply, ← Equiv.sum_comp (contrEquiv1 dot_S1024x512_S256x512_S1024x256_1_1_0_0_n_n 512 rfl rfl).symm]
  refine Finset.sum_congr rfl fun g _ => ?_
  have hk := contrEquiv1_symm_val dot_S1024x512_S256x512_S1024x256_1_1_0_0_n_n 512 rfl rfl g
  have el : dot_S1024x512_S256x512_S1024x256_1_1_0_0_n_n.lhsIdx (ix2 p q) ((contrEquiv1 dot_S1024x512_S256x512_S1024x256_1_1_0_0_n_n 512 rfl rfl).symm g) = ix2 p g := funext fun a => Fin.ext (by
    match a with
    | ⟨0, _⟩ => exact lhs_row _ _
    | ⟨1, _⟩ => exact (lhs_col _ _).trans hk)
  have er : dot_S1024x512_S256x512_S1024x256_1_1_0_0_n_n.rhsIdx (ix2 p q) ((contrEquiv1 dot_S1024x512_S256x512_S1024x256_1_1_0_0_n_n 512 rfl rfl).symm g) = ix2 q g := funext fun a => Fin.ext (by
    match a with
    | ⟨0, _⟩ => exact rhs_row _ _
    | ⟨1, _⟩ => exact (rhs_col _ _).trans hk)
  rw [el, er]

/-! ## One packed bit, as the body computes it -/

/-- Shift right by `7 - s`, keep the lowest bit, convert to a float: the real number `bit w s`. -/
theorem bit_read (w : BitVec 32) (s : Fin 8) (sh : BitVec 32) (hs : sh = BitVec.ofNat 32 (7 - s.val)) :
    FloatOps.sitofp (F := Ideal) .bf16 (IntOp.andi (IntOp.shrsi .vector w sh) 1#32) = ((bit w s : ℝ) : EReal) := by
  subst hs
  rw [shrsi_small]
  rfl

/-- Columns `c … c + 511` of the activation block, at `(p, g)`. -/
theorem slice_apply (x0 : Vec Ideal S1024x4096 .bf16) (c : Nat)
    (inb : ∀ a, (![0, c] : Fin 2 → Nat) a + S1024x512.size a ≤ S1024x4096.size a) (p : Fin 1024) (g : Fin 512)
    (k : Fin 4096) (hk : k.val = c + g.val) :
    View.ld x0 (Rect.unit (s := S1024x4096) ![0, c] S1024x512.size inb) (ix2 p g) = x0 (ix2 p k) := by
  show x0 _ = x0 _
  refine congrArg x0 (funext fun a => Fin.ext ?_)
  match a with
  | ⟨0, _⟩ => show 0 + 1 * p.val = p.val; omega
  | ⟨1, _⟩ => show c + 1 * g.val = k.val; omega

/-- Column `512 s + g` of the regrouped activation block. -/
def slot (s : Fin 8) (g : Fin 512) : Fin 4096 := ⟨512 * s.val + g.val, by have := s.isLt; have := g.isLt; omega⟩

/-- One accumulation step at `(p, q)`: the accumulator plus plane `s`. -/
theorem step_apply (acc : FVec Ideal S1024x256 .f32) (x0 : Vec Ideal S1024x4096 .bf16) (c : Nat)
    (inb : ∀ a, (![0, c] : Fin 2 → Nat) a + S1024x512.size a ≤ S1024x4096.size a)
    (x1 : IVec S256x512 32) (s : Fin 8) (sh : BitVec 32) (hs : sh = BitVec.ofNat 32 (7 - s.val)) (hc : c = 512 * s.val)
    (p : Fin 1024) (q : Fin 256) :
    addf acc (matmul (φ₁ := .bf16) (φ₂ := .bf16) dot_S1024x512_S256x512_S1024x256_1_1_0_0_n_n none (View.ld x0 (Rect.unit (s := S1024x4096) ![0, c] S1024x512.size inb))
        (sitofp .bf16 (andi (shrsi x1 (broadcast S256x512 sh)) (broadcast S256x512 1#32)))
        (constant S1024x256 .f32 0x00000000#32)) (ix2 p q)
      = acc (ix2 p q) + ∑ g : Fin 512, x0 (ix2 p (slot s g)) * ((bit (x1 (ix2 q g)) s : ℝ) : EReal) := by
  rw [addf_apply, plane_apply]
  refine congrArg (acc (ix2 p q) + ·) (Finset.sum_congr rfl fun g _ => ?_)
  rw [slice_apply x0 c inb p g (slot s g) (by subst hc; rfl)]
  exact congrArg (x0 (ix2 p (slot s g)) * ·) (bit_read _ s sh hs)

/-- The column of row sums broadcast along the 256 output columns, at `(p, q)`. -/
theorem rowsum_apply (x2 : FVec Ideal S1024x1 .f32) (p : Fin 1024) (q : Fin 256) :
    broadcastTo S1024x256 x2 Facts₀.broadcasts_S1024x1_S1024x256 (ix2 p q) = x2 (ix2 p 0) :=
  broadcastTo_apply x2 Facts₀.broadcasts_S1024x1_S1024x256 (ix2 p q) (ix2 p 0) (fun a => by
    match a with
    | ⟨0, _⟩ => show p.val = if (1024 : Nat) = 1 then 0 else p.val; rw [if_neg (by decide)]
    | ⟨1, _⟩ => show 0 = if (1 : Nat) = 1 then 0 else q.val; rw [if_pos rfl])

/-! ## The block at an index -/

/-- The output block at `(p, q)`: twice the eight planes added onto zero, in order, minus row `p`'s sum. -/
theorem outBlock_apply (x0 : Vec Ideal S1024x4096 .bf16) (x1 : Vec Ideal S256x512 .i32) (x2 : Vec Ideal S1024x1 .f32)
    (p : Fin 1024) (q : Fin 256) :
    outBlock (F := Ideal) x0 x1 x2 (ix2 p q)
      = Ideal.ofBits .f32 0x40000000#32 *
          ((((((((Ideal.ofBits .f32 0x00000000#32
            + ∑ g : Fin 512, x0 (ix2 p (slot 0 g)) * ((bit (x1 (ix2 q g)) 0 : ℝ) : EReal))
            + ∑ g : Fin 512, x0 (ix2 p (slot 1 g)) * ((bit (x1 (ix2 q g)) 1 : ℝ) : EReal))
            + ∑ g : Fin 512, x0 (ix2 p (slot 2 g)) * ((bit (x1 (ix2 q g)) 2 : ℝ) : EReal))
            + ∑ g : Fin 512, x0 (ix2 p (slot 3 g)) * ((bit (x1 (ix2 q g)) 3 : ℝ) : EReal))
            + ∑ g : Fin 512, x0 (ix2 p (slot 4 g)) * ((bit (x1 (ix2 q g)) 4 : ℝ) : EReal))
            + ∑ g : Fin 512, x0 (ix2 p (slot 5 g)) * ((bit (x1 (ix2 q g)) 5 : ℝ) : EReal))
            + ∑ g : Fin 512, x0 (ix2 p (slot 6 g)) * ((bit (x1 (ix2 q g)) 6 : ℝ) : EReal))
            + ∑ g : Fin 512, x0 (ix2 p (slot 7 g)) * ((bit (x1 (ix2 q g)) 7 : ℝ) : EReal))
          - x2 (ix2 p 0) := by
  unfold outBlock k0_pay2 k0_pay1 k0_pay13 k0_pay12 k0_pay11 k0_pay8 k0_pay7 k0_pay6 k0_pay5 k0_pay14 k0_pay10 k0_pay9 k0_pay4 k0_pay3
  dsimp only
  simp only [shapeCast_self]
  rw [subf_apply, mulf_apply, rowsum_apply,
    step_apply _ x0 3584 _ x1 7 0#32 rfl rfl, step_apply _ x0 3072 _ x1 6 1#32 rfl rfl, step_apply _ x0 2560 _ x1 5 2#32 rfl rfl,
    step_apply _ x0 2048 _ x1 4 3#32 rfl rfl, step_apply _ x0 1536 _ x1 3 4#32 rfl rfl, step_apply _ x0 1024 _ x1 2 5#32 rfl rfl,
    step_apply _ x0 512 _ x1 1 6#32 rfl rfl, step_apply _ x0 0 _ x1 0 7#32 rfl rfl]
  rfl

end Cert.KernelIdeal.Body

end
-- ==== Proof.Planes.lean ====
/-
  The layer, plane by plane, for finite activations.

  For an activation matrix whose entries are all real numbers, the plane-by-plane expression — twice the sum of the
  eight planes `∑ g, x p (8 g + s) * bit (word 512 n + g) s`, minus the row sum `∑ k, x p k` — is the layer's value at
  `(p, n)`. Column `8 g + s` of row `n` reads bit `s` of word `g` of that row (`rowBit_col`); the rest is the law
  `SignedBits.planes`.
-/
import proofs.«406354_j15848429322573_2_alg».proof.Proof.SignedBits

noncomputable section

namespace SignedBits

open Idealize.ShloMosaic Idealize.ShloMosaic.ValueIdx

/-- The packed bit behind column `k` of row `n`. -/
def rowBit (bp : (⟨1, ![5636096]⟩ : Shape).Idx → BitVec 32) (n : Fin 11008) (k : Fin 4096) : ℝ :=
  bit (bp (ix1 (word n ⟨k.val / 8, by have := k.isLt; omega⟩))) ⟨k.val % 8, by omega⟩

theorem weight_eq (bp : (⟨1, ![5636096]⟩ : Shape).Idx → BitVec 32) (n : Fin 11008) (k : Fin 4096) :
    weight bp n k = rowBit bp n k * 2 - 1 := rfl

/-- Column `8 g + s` reads bit `s` of word `g`. -/
theorem rowBit_col (bp : (⟨1, ![5636096]⟩ : Shape).Idx → BitVec 32) (n : Fin 11008) (g : Fin 512) (s : Fin 8) :
    rowBit bp n (col g s) = bit (bp (ix1 (word n g))) s := by
  unfold rowBit
  have hs := s.isLt
  have e1 : (⟨(col g s).val / 8, by have := (col g s).isLt; omega⟩ : Fin 512) = g :=
    Fin.ext (by show (8 * g.val + s.val) / 8 = g.val; omega)
  have e2 : (⟨(col g s).val % 8, by omega⟩ : Fin 8) = s :=
    Fin.ext (by show (8 * g.val + s.val) % 8 = s.val; omega)
  rw [e1, e2]

/-- The planes of a finite activation matrix add up to the layer. -/
theorem layer_planes (x : (⟨2, ![1024, 4096]⟩ : Shape).Idx → EReal) (bp : (⟨1, ![5636096]⟩ : Shape).Idx → BitVec 32)
    (hx : ∀ i, ∃ r : ℝ, x i = (r : EReal)) (p : Fin 1024) (n : Fin 11008) :
    ((2 : ℝ) : EReal) * ((((((((0 + ∑ g : Fin 512, x (ix2 p (col g 0)) * ((bit (bp (ix1 (word n g))) 0 : ℝ) : EReal))
        + ∑ g : Fin 512, x (ix2 p (col g 1)) * ((bit (bp (ix1 (word n g))) 1 : ℝ) : EReal))
        + ∑ g : Fin 512, x (ix2 p (col g 2)) * ((bit (bp (ix1 (word n g))) 2 : ℝ) : EReal))
        + ∑ g : Fin 512, x (ix2 p (col g 3)) * ((bit (bp (ix1 (word n g))) 3 : ℝ) : EReal))
        + ∑ g : Fin 512, x (ix2 p (col g 4)) * ((bit (bp (ix1 (word n g))) 4 : ℝ) : EReal))
        + ∑ g : Fin 512, x (ix2 p (col g 5)) * ((bit (bp (ix1 (word n g))) 5 : ℝ) : EReal))
        + ∑ g : Fin 512, x (ix2 p (col g 6)) * ((bit (bp (ix1 (word n g))) 6 : ℝ) : EReal))
        + ∑ g : Fin 512, x (ix2 p (col g 7)) * ((bit (bp (ix1 (word n g))) 7 : ℝ) : EReal))
      - (0 + ∑ k : Fin 4096, x (ix2 p k))
      = layer x bp (ix2 p n) := by
  choose X hX using hx
  have h := planes (fun k => X (ix2 p k)) (rowBit bp n)
  simp only [rowBit_col] at h
  unfold layer
  simp only [hX]
  exact h

end SignedBits

end
-- ==== Proof.Blocks.lean ====
/-
  From blocks to the array.

  The region finds three arrays the host made: the activation matrix with its columns regrouped, column `512 s + g`
  holding the launched column `8 g + s` (a reshape to [1024, 512, 8], the swap of the last two axes, a reshape back; the
  change of float format is the identity on extended reals); the packed words as 11008 rows of 512; the column of
  row sums `0 + ∑ k, x p k`. Grid point `t` of 43 sees all of the first and third and rows `256 t … 256 t + 255` of the
  second, and writes columns `256 t … 256 t + 255` of the result.

  So what point `t` writes at `(p, q)` is the plane-by-plane expression for row `p` and weight row `256 t + q`, which
  for finite activations is the layer's value there (`SignedBits.layer_planes`): every point writes back its block of
  ONE array, `layer x bp`; the 43 blocks cover all 11008 columns; the result array ends holding `layer x bp`.
-/
import proofs.«406354_j15848429322573_2_alg».proof.Proof.Gen.KernelIdeal.Value
import proofs.«406354_j15848429322573_2_alg».proof.Proof.Body
import proofs.«406354_j15848429322573_2_alg».proof.Proof.Planes
import Idealize.ShloMosaic.Lib.Pipeline.Value
import Idealize.ShloMosaic.Lib.StableHlo.Run
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen SignedBits

variable (m : (ℓ : Loc nD τ sig) → Buf (Elt Ideal) ℓ) (ρ : Dev nD → PrngReg)

/-- The activation matrix and the packed words, as launched. -/
abbrev xArr (c : Dev nD) : S1024x4096.Idx → EReal := m ((c : Thread nD τ).loc main_arg0)
abbrev bpArr (c : Dev nD) : S5636096.Idx → BitVec 32 := m ((c : Thread nD τ).loc main_arg1)

/-! ## The three arrays the region finds -/

/-- The regrouped activation matrix. -/
theorem regrouped_eq (c : Dev nD) : @Eq (FVec Ideal S1024x4096 .bf16) (V m c main_v3)
    (truncf (F := Ideal) .bf16 (shapeCast S1024x4096 (transpose S1024x8x512 [0, 2, 1]
      (shapeCast S1024x512x8 (xArr m c) Facts₀.shapeCasts_S1024x4096_S1024x512x8)
      Facts₀.transposes_S1024x512x8_S1024x8x512_0_2_1) Facts₀.shapeCasts_S1024x8x512_S1024x4096) Facts₀.bitsLt_bf16_f32) := by
  dsimp only [Gen.V, Gen.hostOps0]; after_results <;> rfl

/-- Its column `512 s + g` is the launched column `8 g + s`. -/
theorem regrouped_apply (c : Dev nD) (p : Fin 1024) (s : Fin 8) (g : Fin 512) :
    (V m c main_v3 : S1024x4096.Idx → Elt Ideal .bf16) (ix2 p (Body.slot s g)) = xArr m c (ix2 p (col g s)) := by
  rw [regrouped_eq, truncf_apply,
    shapeCast_apply _ Facts₀.shapeCasts_S1024x8x512_S1024x4096 (ix2 p (Body.slot s g)) (ix3 p s g) (by
      rw [Shape.rowMajor_val_three, Shape.rowMajor_val_two]
      show (p.val * 8 + s.val) * 512 + g.val = p.val * 4096 + (512 * s.val + g.val); omega),
    transpose_apply [0, 2, 1] _ Facts₀.transposes_S1024x512x8_S1024x8x512_0_2_1 (ix3 p s g) (ix3 p g s) (fun b => match b with
      | ⟨0, _⟩ => rfl
      | ⟨1, _⟩ => rfl
      | ⟨2, _⟩ => rfl),
    shapeCast_apply _ Facts₀.shapeCasts_S1024x4096_S1024x512x8 (ix3 p g s) (ix2 p (col g s)) (by
      rw [Shape.rowMajor_val_two, Shape.rowMajor_val_three]
      show p.val * 4096 + (8 * g.val + s.val) = (p.val * 512 + g.val) * 8 + s.val; omega)]

/-- The packed words as rows of 512. -/
theorem words_eq (c : Dev nD) : (V m c main_v6 : S11008x512.Idx → Elt Ideal .i32) =
    shapeCast S11008x512 (bpArr m c) Facts₀.shapeCasts_S5636096_S11008x512 := by
  dsimp only [Gen.V, Gen.hostOps0]; after_results <;> rfl

theorem words_apply (c : Dev nD) (n : Fin 11008) (g : Fin 512) :
    (V m c main_v6 : S11008x512.Idx → Elt Ideal .i32) (ix2 n g) = bpArr m c (ix1 (word n g)) := by
  rw [words_eq, shapeCast_apply _ Facts₀.shapeCasts_S5636096_S11008x512 (ix2 n g) (ix1 (word n g)) (by
    rw [Shape.rowMajor_val_one, Shape.rowMajor_val_two]
    show 512 * n.val + g.val = n.val * 512 + g.val; omega)]

/-- The column of row sums. -/
theorem rowsum_eq (c : Dev nD) : @Eq (FVec Ideal S1024x1 .f32) (V m c main_v5)
    (broadcastInDim S1024x1 ![0] Facts₀.bcast_S1024_S1024x1_0
      (Host.reduceAdd (F := Ideal) (φ := .f32) (xArr m c) (constant (F := Ideal) S_ .f32 0x00000000#32)
        Facts₀.reducesTo_S1024x4096_S1024_d1 Facts₀.h_S_)) := by
  dsimp only [Gen.V, Gen.hostOps0]; after_results <;> rfl

theorem rowsum_apply (c : Dev nD) (p : Fin 1024) :
    (V m c main_v5 : S1024x1.Idx → Elt Ideal .f32) (ix2 p 0)
      = Ideal.ofBits .f32 0x00000000#32 + ∑ k : Fin 4096, xArr m c (ix2 p k) := by
  rw [rowsum_eq, broadcastInDim_apply ![0] Facts₀.bcast_S1024_S1024x1_0 _ (ix2 p 0) (ix1 p) (fun a => match a with
    | ⟨0, _⟩ => by show p.val = if (1024 : Nat) = 1 then 0 else p.val; rw [if_neg (by decide)])]
  simp only [Host.reduceAdd, Ideal.hostReduceAdd_def]
  rw [Ideal.hostReduceAdd_single Facts₀.reducesTo_S1024x4096_S1024_d1 (by decide)]
  refine congrArg (_ + ·) (Finset.sum_congr rfl fun k _ => ?_)
  exact congrArg (xArr m c) (funext fun a => Fin.ext (by
    match a with
    | ⟨0, _⟩ => rfl
    | ⟨1, _⟩ => rfl))

/-! ## The windows' blocks -/

/-- The printed index maps, decided over the 43 grid points: the first and third windows stay at block (0, 0), the
    second moves down the rows with the point, the output moves along the columns with it. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

theorem point_lt (t : Fin cfg0.N) : t.val < 43 := lt_of_lt_of_eq t.isLt N_0

theorem lt_points {n : Nat} (h : n < 43) : n < cfg0.N := lt_of_lt_of_eq h N_0.symm

/-- Row `256 t + q` of the weights: output column `q` of point `t`. -/
def ocol (t : Fin cfg0.N) (q : Fin 256) : Fin 11008 :=
  ⟨256 * t.val + q.val, by have := point_lt t; have := q.isLt; omega⟩

/-- The three input blocks at point `t`, each at its literal type. -/
abbrev xblk (c : Dev nD) (t : Fin cfg0.N) : Vec Ideal S1024x4096 .bf16 := iblk m c 0 t
abbrev wblk (c : Dev nD) (t : Fin cfg0.N) : Vec Ideal S256x512 .i32 := iblk m c 1 t
abbrev rblk (c : Dev nD) (t : Fin cfg0.N) : Vec Ideal S1024x1 .f32 := iblk m c 2 t

theorem xblk_apply (c : Dev nD) (t : Fin cfg0.N) (p : Fin 1024) (k : Fin 4096) :
    xblk m c t (ix2 p k) = (V m c main_v3 : S1024x4096.Idx → Elt Ideal .bf16) (ix2 p k) := by
  obtain ⟨e0, e1, -⟩ := idx_facts t
  show V m c main_v3 (((cfg0.win 0).blk t).view.emb (ix2 p k)) = V m c main_v3 (ix2 p k)
  refine congrArg (V m c main_v3) (funext fun a => Fin.ext ?_)
  match a with
  | ⟨0, _⟩ => show win0_0.index t (0 : Fin 2) * 1024 + 1 * p.val = p.val; omega
  | ⟨1, _⟩ => show win0_0.index t (1 : Fin 2) * 4096 + 1 * k.val = k.val; omega

theorem wblk_apply (c : Dev nD) (t : Fin cfg0.N) (q : Fin 256) (g : Fin 512) :
    wblk m c t (ix2 q g) = (V m c main_v6 : S11008x512.Idx → Elt Ideal .i32) (ix2 (ocol t q) g) := by
  obtain ⟨-, -, e2, e3, -⟩ := idx_facts t
  show V m c main_v6 (((cfg0.win 1).blk t).view.emb (ix2 q g)) = V m c main_v6 (ix2 (ocol t q) g)
  refine congrArg (V m c main_v6) (funext fun a => Fin.ext ?_)
  match a with
  | ⟨0, _⟩ => show win0_1.index t (0 : Fin 2) * 256 + 1 * q.val = 256 * t.val + q.val; omega
  | ⟨1, _⟩ => show win0_1.index t (1 : Fin 2) * 512 + 1 * g.val = g.val; omega

theorem rblk_apply (c : Dev nD) (t : Fin cfg0.N) (p : Fin 1024) :
    rblk m c t (ix2 p 0) = (V m c main_v5 : S1024x1.Idx → Elt Ideal .f32) (ix2 p 0) := by
  obtain ⟨-, -, -, -, e4, e5, -⟩ := idx_facts t
  show V m c main_v5 (((cfg0.win 2).blk t).view.emb (ix2 p 0)) = V m c main_v5 (ix2 p 0)
  refine congrArg (V m c main_v5) (funext fun a => Fin.ext ?_)
  match a with
  | ⟨0, _⟩ => show win0_2.index t (0 : Fin 2) * 1024 + 1 * p.val = p.val; omega
  | ⟨1, _⟩ => show win0_2.index t (1 : Fin 2) * 1 + 1 * 0 = 0; omega

/-- The blocks' entries as entries of the launched arrays. -/
theorem xblk_read (c : Dev nD) (t : Fin cfg0.N) (p : Fin 1024) (s : Fin 8) (g : Fin 512) :
    xblk m c t (ix2 p (Body.slot s g)) = xArr m c (ix2 p (col g s)) :=
  (xblk_apply m c t p (Body.slot s g)).trans (regrouped_apply m c p s g)

theorem wblk_read (c : Dev nD) (t : Fin cfg0.N) (q : Fin 256) (g : Fin 512) :
    wblk m c t (ix2 q g) = bpArr m c (ix1 (word (ocol t q) g)) :=
  (wblk_apply m c t q g).trans (words_apply m c (ocol t q) g)

theorem rblk_read (c : Dev nD) (t : Fin cfg0.N) (p : Fin 1024) :
    rblk m c t (ix2 p 0) = Ideal.ofBits .f32 0x00000000#32 + ∑ k : Fin 4096, xArr m c (ix2 p k) :=
  (rblk_apply m c t p).trans (rowsum_apply m c p)

/-! ## What a point writes -/

/-- For finite activations, point `t`'s output block at `(p, q)` is the layer at `(p, 256 t + q)`. -/
theorem point_eq (c : Dev nD) (hx : ∀ i, ∃ r : ℝ, xArr m c i = (r : EReal)) (t : Fin cfg0.N) (p : Fin 1024) (q : Fin 256) :
    Body.outBlock (F := Ideal) (xblk m c t) (wblk m c t) (rblk m c t) (ix2 p q)
      = layer (xArr m c) (bpArr m c) (ix2 p (ocol t q)) := by
  rw [Body.outBlock_apply]
  refine Eq.trans ?_ (layer_planes (xArr m c) (bpArr m c) hx p (ocol t q))
  rw [ofBits_two, Ideal.ofBits_zero_f32]
  simp only [xblk_read, wblk_read, rblk_read, Ideal.ofBits_zero_f32]

theorem block_eq (c : Dev nD) (hx : ∀ i, ∃ r : ℝ, xArr m c i = (r : EReal)) (t : Fin cfg0.N) (j : S1024x256.Idx) :
    Body.outBlock (F := Ideal) (xblk m c t) (wblk m c t) (rblk m c t) j
      = layer (xArr m c) (bpArr m c) (ix2 (j 0) (ocol t (j 1))) := by
  exact (congrArg (Body.outBlock (F := Ideal) (xblk m c t) (wblk m c t) (rblk m c t)) (eq_ix2 j)).trans
    (point_eq m c hx t (j 0) (j 1))

/-- WHAT POINT `t` WRITES BACK is its block of the layer. -/
theorem flushed_eq (c : Dev nD) (hx : ∀ i, ∃ r : ℝ, xArr m c i = (r : EReal)) (t : Fin cfg0.N) :
    (dats m 0 c).flushed 3 t = ((cfg0.win 3).blk t).view.read (Elt Ideal) (layer (xArr m c) (bpArr m c)) := by
  rw [Cert.KernelIdeal.Value.flushed3_A, Body.out_eq]
  obtain ⟨-, -, -, -, -, -, e6, e7⟩ := idx_facts t
  funext j
  show Body.outBlock (F := Ideal) (xblk m c t) (wblk m c t) (rblk m c t) j
    = layer (xArr m c) (bpArr m c) (((cfg0.win 3).blk t).view.emb j)
  rw [block_eq m c hx t j]
  refine congrArg (layer (xArr m c) (bpArr m c)) (funext fun a => Fin.ext ?_)
  match a with
  | ⟨0, _⟩ => show (j 0).val = win0_3.index t (0 : Fin 2) * 1024 + 1 * (j 0).val; omega
  | ⟨1, _⟩ => show 256 * t.val + (j 1).val = win0_3.index t (1 : Fin 2) * 256 + 1 * (j 1).val; omega

/-! ## The cover, and the array -/

/-- An index of the result is in point `t`'s block iff each coordinate is in the block's range. -/
theorem mem_blk (t : Fin cfg0.N) (i : S1024x11008.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v7).slice (win0_3.rect t)).set ↔ _
  rw [View.set_slice_whole, Rect.mem_set_unit]
  exact Iff.rfl

/-- Column `n` of the result is in the block of point `n / 256`. -/
theorem cover (i : S1024x11008.Idx) :
    ∃ t : Fin cfg0.N, (cfg0.win 3).flush t = true ∧ i ∈ ((cfg0.win 3).blk t).view.set := by
  have hi0 : (i 0).val < 1024 := (i 0).isLt
  have hi1 : (i 1).val < 11008 := (i 1).isLt
  have ht : (i 1).val / 256 < cfg0.N := lt_points (by omega)
  refine ⟨⟨(i 1).val / 256, ht⟩, flush0_3 _, ?_⟩
  rw [mem_blk]
  obtain ⟨-, -, -, -, -, -, e6, e7⟩ := idx_facts ⟨(i 1).val / 256, ht⟩
  have e7' : win0_3.index ⟨(i 1).val / 256, ht⟩ (1 : Fin 2) = (i 1).val / 256 := e7
  intro a
  match a with
  | ⟨0, _⟩ =>
    show win0_3.index _ (0 : Fin 2) * 1024 ≤ (i 0).val ∧ (i 0).val < win0_3.index _ (0 : Fin 2) * 1024 + 1024
    omega
  | ⟨1, _⟩ =>
    show win0_3.index _ (1 : Fin 2) * 256 ≤ (i 1).val ∧ (i 1).val < win0_3.index _ (1 : Fin 2) * 256 + 256
    omega

/-- THE ARRAY after the run: the layer of the two arguments. -/
theorem final (c : Dev nD) (hx : ∀ i, ∃ r : ℝ, xArr m c i = (r : EReal)) :
    (dats m 0 c).arrAt 3 cfg0.N = layer (xArr m c) (bpArr m c) :=
  (dats m 0 c).arrAt_eq_of_cover 3 (layer (xArr m c) (bpArr m c)) (fun t _ => flushed_eq m c hx t) cover

/-- The kernel's run for finite activations: the result array ends at the layer, the arguments unchanged. -/
theorem run (hx : ∀ (c : Dev nD) i, ∃ r : ℝ, xArr m c i = (r : EReal)) :
    θ_run defs (onTc (τ := τ) (main (F := Ideal))) ⟨m, fun _ => 0, ρ⟩ fun r => ∀ c : Dev nD,
      r.2.mem ((c : Thread nD τ).loc main_v7) = layer (xArr m c) (bpArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hx c)), (h c).2⟩)
    (Cert.KernelIdeal.Value.run_blocks m ρ)

end Cert.KernelIdeal.Blocks

end
-- ==== Proof.Reference.lean ====
/-
  The reference is the layer.

  The reference unpacks every word into its eight bits `(w >> (7 - j)) & 1`, lays the `5636096 × 8` bits out as the
  `11008 × 4096` matrix row by row, turns a bit `b` into `2 b - 1`, and multiplies `x` by the transpose. Entry
  `(n, k)` of the matrix is flat position `4096 n + k`, that is bit `(4096 n + k) % 8 = k % 8` of word
  `(4096 n + k) / 8 = 512 n + k / 8`: the weight `SignedBits.weight bp n k`. The shift amount, computed as
  `7 + (-1) * j` in 32-bit arithmetic, is `7 - j`.
-/
import proofs.«406354_j15848429322573_2_alg».proof.Proof.Gen.ReferenceIdeal.Read
import proofs.«406354_j15848429322573_2_alg».proof.Proof.SignedBits

noncomputable section

namespace Cert.ReferenceIdeal.Layer

open Cert.ReferenceIdeal Cert.ReferenceIdeal.Read Idealize.ShloMosaic Idealize.ShloMosaic.ValueIdx SignedBits

/-- One weight as the reference computes it: shift by `7 + (-1) * j`, mask, convert, double, subtract one. -/
theorem weight_read (bp : (⟨S5636096, .i32⟩ : BufTy).Contents (Elt Ideal)) (n : Fin 11008) (k : Fin 4096)
    (w : BitVec 32) (j : Nat)
    (hw : w = bp (ix1 (word n ⟨k.val / 8, by have := k.isLt; omega⟩))) (hj : j = k.val % 8) :
    FloatOps.subf (FloatOps.mulf (FloatOps.sitofp (F := Ideal) .f32
        (IntOp.andi (IntOp.shrsi .host w (IntOp.addi 7#32 (IntOp.muli 4294967295#32 (BitVec.ofNat 32 j)))) 1#32))
        (FloatOps.ofBits .f32 0x40000000#32)) (FloatOps.ofBits .f32 0x3F800000#32)
      = ((weight bp n k : ℝ) : EReal) := by
  subst hw hj
  rw [seven_minus ⟨k.val % 8, by omega⟩, shrsi_small .host _ ⟨k.val % 8, by omega⟩]
  unfold weight bit bitWord
  rw [EReal.coe_sub, EReal.coe_mul, ← ofBits_two, ← ofBits_one]
  rfl

/-- The reference's result is the layer of its two arguments. -/
theorem result_eq (x : (⟨S1024x4096, .f32⟩ : BufTy).Contents (Elt Ideal)) (bp : (⟨S5636096, .i32⟩ : BufTy).Contents (Elt Ideal)) :
    val_main_v19 (F := Ideal) x bp = layer x bp := by
  funext i
  rw [val_main_v19_apply]
  unfold layer
  refine Finset.sum_congr rfl fun k _ => ?_
  have hl : lidx_main_v19 i k = ix2 (i 0) k := funext fun a => Fin.ext (by
    match a with
    | ⟨0, _⟩ => rfl
    | ⟨1, _⟩ => rfl)
  rw [hl]
  refine congrArg (x (ix2 (i 0) k) * ·) ?_
  simp only [val_main_v18_apply, val_main_v17_apply, val_main_v16_apply, val_main_cst_2_apply, val_main_v15_apply,
    val_main_v14_apply, val_main_cst_apply, val_main_v13_apply, val_main_v12_apply, val_main_v11_apply,
    val_main_v10_apply, val_main_c_1_apply, val_main_v9_apply, val_main_v8_apply, val_main_v7_apply,
    val_main_v6_apply, val_main_v5_apply, val_main_v4_apply, val_main_v3_apply, val_main_c_0_apply,
    val_main_v2_apply, val_main_v1_apply, val_main_c_apply, val_main_v0_apply]
  have hi1 : (i 1).val < 11008 := (i 1).isLt
  have hk : k.val < 4096 := k.isLt
  refine weight_read bp (i 1) k _ _ (congrArg bp (funext fun a => Fin.ext ?_)) ?_
  · match a with
    | ⟨0, _⟩ => show ((i 1).val * 4096 + k.val) / 8 = 512 * (i 1).val + k.val / 8; omega
  · show ((i 1).val * 4096 + k.val) % 8 = k.val % 8
    omega

end Cert.ReferenceIdeal.Layer

end
-- ==== Proof.Finite.lean ====
/-
  Finite inputs are real numbers.

  The precondition is `all (|x| < +∞)`: a conjunction over every index of the comparison of `max x (-x)` with the
  pattern of `+∞`. If it holds, each comparison holds; and an extended real whose absolute value is below `+∞` is
  neither infinity, so it is a real number. The packed words are integers and are not constrained.
-/
import proofs.«406354_j15848429322573_2_alg».proof.Defs
import proofs.«406354_j15848429322573_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

instance : Subsingleton Cert.Pre_finite_inputs.S_.Idx := ⟨fun a b => funext fun d => d.elim0⟩

/-- The pattern `0x7F800000` denotes `+∞`. -/
theorem ofBits_inf : Ideal.ofBits .f32 0x7F800000#32 = ⊤ := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => simp at h
  | top => simp at h
  | coe r => exact ⟨r, rfl⟩

/-- A comparison that answers `1` holds. -/
theorem lt_of_cmp_olt (a b : EReal) (h : Ideal.cmp .olt a b = 1#1) : a < b := by
  by_contra hn
  have h0 : Ideal.cmp .olt a b = 0#1 := by simp [Ideal.cmp, hn]
  rw [h0] at h
  exact absurd h (by decide)

/-- If the precondition's function is all ones, every entry of `x` is a real number. -/
theorem real_of_pre (x : FVec Ideal Cert.Pre_finite_inputs.S1024x4096 .f32) (bp : IVec Cert.Pre_finite_inputs.S5636096 32)
    (h : Cert.Pre_finite_inputs.fn (F := Ideal) x bp = fun _ => 1#1) (i : Cert.Pre_finite_inputs.S1024x4096.Idx) :
    ∃ r : ℝ, x i = (r : EReal) := by
  have h0 := congrFun h ix0
  dsimp only [Cert.Pre_finite_inputs.fn] at h0
  have hi := Host.reduce_andi_all _ _ _ _ _ h0 i
  have hc : Ideal.cmp .olt (max (x i) (-(x i))) (Ideal.ofBits .f32 0x7F800000#32) = 1#1 := hi
  rw [ofBits_inf] at hc
  exact real_of_abs_lt_top _ (lt_of_cmp_olt _ _ hc)

end Cert.Finite

end
-- ==== Proof.lean ====
/-
  A linear layer with sign weights packed one bit each, computed two ways.

  The reference unpacks the 5636096 words into the 11008 × 4096 matrix of weights `2 b - 1 ∈ {-1, +1}` and multiplies:
  `out p n = ∑ k, x p k * (2 b n k - 1)`. The kernel never forms that matrix. It regroups the columns of `x` by bit
  position, multiplies each group of 512 columns by the 0/1 bits of that position, adds the eight products, and then
  corrects once: `out p n = 2 * ∑ k, x p k * b n k - ∑ k, x p k`.

  Over the extended reals the two agree when every `x p k` is a real number, which the precondition gives
  (`Finite.lean`); at an infinite entry `2 x - x` would be `∞ - ∞`. The law itself is `SignedBits.lean` and
  `Planes.lean`; that the reference's term is the layer is `Reference.lean`; that each grid point writes its block of
  the layer is `Body.lean` (one point's arithmetic) and `Blocks.lean` (the blocks, and the array they cover). The changes
  of float format are the identity on extended reals and the ideal pass rewrote nothing, so `preserves` is `True`.
-/
import proofs.«406354_j15848429322573_2_alg».proof.Defs
import proofs.«406354_j15848429322573_2_alg».proof.Proof.Gen.Kernel
import proofs.«406354_j15848429322573_2_alg».proof.Proof.Gen.Kernel.Skeleton
import proofs.«406354_j15848429322573_2_alg».proof.Proof.Gen.Kernel.Launch
import proofs.«406354_j15848429322573_2_alg».proof.Proof.Gen.Kernel.Points
import proofs.«406354_j15848429322573_2_alg».proof.Proof.Gen.Kernel.Frame
import proofs.«406354_j15848429322573_2_alg».proof.Proof.Gen.KernelIdeal
import proofs.«406354_j15848429322573_2_alg».proof.Proof.Gen.KernelIdeal.Skeleton
import proofs.«406354_j15848429322573_2_alg».proof.Proof.Gen.KernelIdeal.Launch
import proofs.«406354_j15848429322573_2_alg».proof.Proof.Gen.KernelIdeal.Points
import proofs.«406354_j15848429322573_2_alg».proof.Proof.Gen.KernelIdeal.Frame
import proofs.«406354_j15848429322573_2_alg».proof.Proof.Gen.ReferenceIdeal
import proofs.«406354_j15848429322573_2_alg».proof.Proof.Gen.Pre_finite_inputs
import proofs.«406354_j15848429322573_2_alg».proof.Proof.Gen.KernelIdeal.Value
import proofs.«406354_j15848429322573_2_alg».proof.Proof.Gen.ReferenceIdeal.Run
import proofs.«406354_j15848429322573_2_alg».proof.Proof.Gen.ReferenceIdeal.Read
import proofs.«406354_j15848429322573_2_alg».proof.Proof.Blocks
import proofs.«406354_j15848429322573_2_alg».proof.Proof.Reference
import proofs.«406354_j15848429322573_2_alg».proof.Proof.Finite
import Idealize.ShloMosaic.Adequacy
import Idealize.ShloMosaic.Init

noncomputable section

namespace Cert.Proof

open Idealize.ShloMosaic Idealize.ShloMosaic.TcCoe Idealize.SL.Sem

/-- The three programs run, fault nowhere and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the layer `x · Wᵀ` of their common arguments in the result: the kernel because its
    43 blocks are blocks of the layer and cover the array, for the finite `x` the precondition gives; the reference
    because its composed term is the layer. -/
theorem algebraic : Cert.algebraic_KernelIdeal_ReferenceIdeal := by
  intro m ρ m' ρ' hpre hagree
  have hx : ∀ (c : Dev Cert.KernelIdeal.nD) i, ∃ r : ℝ, Cert.KernelIdeal.Blocks.xArr m c i = (r : EReal) :=
    fun c i => Cert.Finite.real_of_pre _ _ (hpre c) i
  refine ⟨fun c => SignedBits.layer (Cert.KernelIdeal.Blocks.xArr m c) (Cert.KernelIdeal.Blocks.bpArr m c),
    Cert.KernelIdeal.Blocks.run m ρ hx, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v19_eq _ _).trans (Cert.ReferenceIdeal.Layer.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
